-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S800000 32) (main_v33 : IVec S_ 1) : IVec S_ 1 :=
  let main_c_12 : IVec S_ 32 := constantI S_ 32 4294917296#32
  let main_v34 : IVec S800000 32 := broadcastInDim S800000 ![] bcast_S_S800000 main_c_12
  let main_v35 : IVec S800000 1 := cmpi .sge main_arg1 main_v34
  let main_c_13 : IVec S_ 1 := constantI S_ 1 1#1
  let main_v36 : IVec S_ 1 := (fun x v => Host.reduce IntOp.andi x v reducesTo_S800000_S_d0 h_S_) main_v35 main_c_13
  let main_v37 : IVec S_ 1 := andi main_v33 main_v36
  let main_c_14 : IVec S_ 32 := constantI S_ 32 50000#32
  let main_v38 : IVec S800000 32 := broadcastInDim S800000 ![] bcast_S_S800000 main_c_14
  let main_v39 : IVec S800000 1 := cmpi .slt main_arg1 main_v38
  let main_c_15 : IVec S_ 1 := constantI S_ 1 1#1
  let main_v40 : IVec S_ 1 := (fun x v => Host.reduce IntOp.andi x v reducesTo_S800000_S_d0 h_S_) main_v39 main_c_15
  let main_v41 : IVec S_ 1 := andi main_v37 main_v40
  main_v41

def fn_part1 {F : FTy → Type} [FloatOps F] (main_arg1 : IVec S800000 32) (main_arg6 : FVec F S96 .f32) (main_arg7 : FVec F S96x96 .f32) (main_arg8 : FVec F S96 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg6
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg7
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg8
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg1 main_v33

def fn {F : FTy → Type} [FloatOps F] (main_arg0 : FVec F S50000x96 .f32) (main_arg1 : IVec S800000 32) (main_arg2 : IVec S800000 32) (main_arg3 : FVec F S96x96 .f32) (main_arg4 : FVec F S96 .f32) (main_arg5 : FVec F S96x96 .f32) (main_arg6 : FVec F S96 .f32) (main_arg7 : FVec F S96x96 .f32) (main_arg8 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg3
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg4
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg5
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg1 main_arg6 main_arg7 main_arg8 main_v13 main_v16
-- ==== Kernel.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1 : Shape := ⟨1, ![1]⟩
abbrev S1x1 : Shape := ⟨2, ![1, 1]⟩
abbrev S800000x96 : Shape := ⟨2, ![800000, 96]⟩
abbrev S5000x96 : Shape := ⟨2, ![5000, 96]⟩
abbrev S1x96 : Shape := ⟨2, ![1, 96]⟩

abbrev nBuf : Space → Nat
  | .hbm => 131
  | .vmem => 18
  | .smem => 0
  | _ => 0

abbrev hbmTy0_0 (i : Nat) : BufTy := match i % 128 with
  | 0 => ⟨S50000x96, .f32⟩
  | 1 => ⟨S800000, .i32⟩
  | 2 => ⟨S800000, .i32⟩
  | 3 => ⟨S96x96, .f32⟩
  | 4 => ⟨S96, .f32⟩
  | 5 => ⟨S96x96, .f32⟩
  | 6 => ⟨S96, .f32⟩
  | 7 => ⟨S96x96, .f32⟩
  | 8 => ⟨S96, .f32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S_, .f32⟩
  | 17 => ⟨S50000, .f32⟩
  | 18 => ⟨S50000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S50000x1, .f32⟩
  | 31 => ⟨S_, .f32⟩
  | 32 => ⟨S50000, .f32⟩
  | 33 => ⟨S50000, .f32⟩
  | 34 => ⟨S50000x1, .f32⟩
  | 35 => ⟨S50000x96, .f32⟩
  | 36 => ⟨S50000x96, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S1, .i32⟩
  | 46 => ⟨S_, .i32⟩
  | 47 => ⟨S800000x1, .i32⟩
  | 48 => ⟨S800000x1, .i1⟩
  | 49 => ⟨S1x1, .i32⟩
  | 50 => ⟨S800000x1, .i32⟩
  | 51 => ⟨S800000x1, .i1⟩
  | 52 => ⟨S800000x1, .i1⟩
  | 53 => ⟨S_, .i1⟩
  | 54 => ⟨S800000, .i1⟩
  | 55 => ⟨S800000x96, .f32⟩
  | 56 => ⟨S800000x96, .i1⟩
  | 57 => ⟨S_, .f32⟩
  | 58 => ⟨S800000x96, .f32⟩
  | 59 => ⟨S800000x96, .f32⟩
  | 60 => ⟨S_, .f32⟩
  | 61 => ⟨S50000x96, .f32⟩
  | 62 => ⟨S800000x1, .i32⟩
  | 63 => ⟨S50000x96, .f32⟩
  | 64 => ⟨S50000x96, .f32⟩
  | 65 => ⟨S50000x96, .f32⟩
  | 66 => ⟨S50000x96, .f32⟩
  | 67 => ⟨S50000x96, .f32⟩
  | 68 => ⟨S50000x96, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S1, .i32⟩
  | 78 => ⟨S_, .i32⟩
  | 79 => ⟨S800000x1, .i32⟩
  | 80 => ⟨S800000x1, .i1⟩
  | 81 => ⟨S1x1, .i32⟩
  | 82 => ⟨S800000x1, .i32⟩
  | 83 => ⟨S800000x1, .i1⟩
  | 84 => ⟨S800000x1, .i1⟩
  | 85 => ⟨S_, .i1⟩
  | 86 => ⟨S800000, .i1⟩
  | 87 => ⟨S800000x96, .f32⟩
  | 88 => ⟨S800000x96, .i1⟩
  | 89 => ⟨S_, .f32⟩
  | 90 => ⟨S800000x96, .f32⟩
  | 91 => ⟨S800000x96, .f32⟩
  | 92 => ⟨S_, .f32⟩
  | 93 => ⟨S50000x96, .f32⟩
  | 94 => ⟨S800000x1, .i32⟩
  | 95 => ⟨S50000x96, .f32⟩
  | 96 => ⟨S50000x96, .f32⟩
  | 97 => ⟨S50000x96, .f32⟩
  | 98 => ⟨S50000x96, .f32⟩
  | 99 => ⟨S50000x96, .f32⟩
  | 100 => ⟨S50000x96, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S1, .i32⟩
  | 110 => ⟨S_, .i32⟩
  | 111 => ⟨S800000x1, .i32⟩
  | 112 => ⟨S800000x1, .i1⟩
  | 113 => ⟨S1x1, .i32⟩
  | 114 => ⟨S800000x1, .i32⟩
  | 115 => ⟨S800000x1, .i1⟩
  | 116 => ⟨S800000x1, .i1⟩
  | 117 => ⟨S_, .i1⟩
  | 118 => ⟨S800000, .i1⟩
  | 119 => ⟨S800000x96, .f32⟩
  | 120 => ⟨S800000x96, .i1⟩
  | 121 => ⟨S_, .f32⟩
  | 122 => ⟨S800000x96, .f32⟩
  | 123 => ⟨S800000x96, .f32⟩
  | 124 => ⟨S_, .f32⟩
  | 125 => ⟨S50000x96, .f32⟩
  | 126 => ⟨S800000x1, .i32⟩
  | 127 => ⟨S50000x96, .f32⟩
  | _ => ⟨S50000x96, .f32⟩

abbrev hbmTy0_1 (i : Nat) : BufTy := match i % 128 with
  | 0 => ⟨S50000x96, .f32⟩
  | 1 => ⟨S50000x96, .f32⟩
  | 2 => ⟨S50000x96, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S96x96, .f32⟩
  | .local _ .vmem, ⟨9, _⟩ => ⟨S96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S96x96, .f32⟩
  | .local _ .vmem, ⟨15, _⟩ => ⟨S96, .f32⟩
  | .local _ .vmem, ⟨16, _⟩ => ⟨S5000x96, .f32⟩
  | .local _ .vmem, ⟨17, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_call2_cst : Ref sig .tc := ⟨.hbm, 57, rfl⟩
abbrev main_call2_v15 : Ref sig .tc := ⟨.hbm, 58, rfl⟩
abbrev main_v17 : Ref sig .tc := ⟨.hbm, 59, rfl⟩
abbrev main_cst_6 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_call3_c : Ref sig .tc := ⟨.hbm, 69, rfl⟩
abbrev main_call3_v0 : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_c_1 : Ref sig .tc := ⟨.hbm, 77, rfl⟩
abbrev main_call3_c_2 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_c_3 : Ref sig .tc := ⟨.hbm, 85, rfl⟩
abbrev main_call3_v12 : Ref sig .tc := ⟨.hbm, 86, rfl⟩
abbrev main_call3_v13 : Ref sig .tc := ⟨.hbm, 87, rfl⟩
abbrev main_call3_v14 : Ref sig .tc := ⟨.hbm, 88, rfl⟩
abbrev main_call3_cst : Ref sig .tc := ⟨.hbm, 89, rfl⟩
abbrev main_call3_v15 : Ref sig .tc := ⟨.hbm, 90, rfl⟩
abbrev main_v26 : Ref sig .tc := ⟨.hbm, 91, rfl⟩
abbrev main_cst_7 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_call4_c : Ref sig .tc := ⟨.hbm, 101, rfl⟩
abbrev main_call4_v0 : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_c_1 : Ref sig .tc := ⟨.hbm, 109, rfl⟩
abbrev main_call4_c_2 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_c_3 : Ref sig .tc := ⟨.hbm, 117, rfl⟩
abbrev main_call4_v12 : Ref sig .tc := ⟨.hbm, 118, rfl⟩
abbrev main_call4_v13 : Ref sig .tc := ⟨.hbm, 119, rfl⟩
abbrev main_call4_v14 : Ref sig .tc := ⟨.hbm, 120, rfl⟩
abbrev main_call4_cst : Ref sig .tc := ⟨.hbm, 121, rfl⟩
abbrev main_call4_v15 : Ref sig .tc := ⟨.hbm, 122, rfl⟩
abbrev main_v35 : Ref sig .tc := ⟨.hbm, 123, rfl⟩
abbrev main_cst_8 : Ref sig .tc := ⟨.hbm, 124, rfl⟩
abbrev main_v36 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x96_0 : S800000.BroadcastsInDim S800000x96 (![0] : Fin 1 → Fin S800000x96.rank)
  bcast_S_S800000x96 : S_.BroadcastsInDim S800000x96 (![] : Fin 0 → Fin S800000x96.rank)
  bcast_S_S50000x96 : S_.BroadcastsInDim S50000x96 (![] : Fin 0 → Fin S50000x96.rank)
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S96_S96_0 : ∀ a, (![0] : Fin 1 → Nat) a + S96.size a ≤ S96.size a
  h_S96 : 0 < S96.numel
  shapeCasts_S96_S1x96 : S96.ShapeCasts S1x96
  broadcasts_S1x96_S5000x96 : S1x96.Broadcasts S5000x96
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96.size a ≤ S96.size a
  hwx0_2 : ∀ i : grid0.Coords, EltTy.bits .f32 = 32 ∨ (Rect.block (s := S96) S96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96.size a ≤ S96.size a
  hwx1_2 : ∀ i : grid1.Coords, EltTy.bits .f32 = 32 ∨ (Rect.block (s := S96) S96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x96.size a ≤ S50000x96.size a
  hwx1_3 : ∀ i : grid1.Coords, EltTy.bits .f32 = 32 ∨ (Rect.block (s := S50000x96) S5000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96.size a ≤ S96.size a
  hwx2_2 : ∀ i : grid2.Coords, EltTy.bits .f32 = 32 ∨ (Rect.block (s := S96) S96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x96.size a ≤ S50000x96.size a
  hwx2_3 : ∀ i : grid2.Coords, EltTy.bits .f32 = 32 ∨ (Rect.block (s := S50000x96) S5000x96.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_v22) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S5000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S5000x96.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x96 : Shape := ⟨2, ![800000, 96]⟩
abbrev S1x96 : Shape := ⟨2, ![1, 96]⟩

abbrev nBuf : Space → Nat
  | .hbm => 107
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000, .i32⟩
  | .hbm, ⟨2, _⟩ => ⟨S800000, .i32⟩
  | .hbm, ⟨3, _⟩ => ⟨S96x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x96, .f32⟩
  | .hbm, ⟨46, _⟩ => ⟨S_, .f32⟩
  | .hbm, ⟨47, _⟩ => ⟨S50000x96, .f32⟩
  | .hbm, ⟨48, _⟩ => ⟨S800000x1, .i32⟩
  | .hbm, ⟨49, _⟩ => ⟨S50000x96, .f32⟩
  | .hbm, ⟨50, _⟩ => ⟨S50000x96, .f32⟩
  | .hbm, ⟨51, _⟩ => ⟨S50000x96, .f32⟩
  | .hbm, ⟨52, _⟩ => ⟨S50000x96, .f32⟩
  | .hbm, ⟨53, _⟩ => ⟨S1x96, .f32⟩
  | .hbm, ⟨54, _⟩ => ⟨S50000x96, .f32⟩
  | .hbm, ⟨55, _⟩ => ⟨S50000x96, .f32⟩
  | .hbm, ⟨56, _⟩ => ⟨S_, .f32⟩
  | .hbm, ⟨57, _⟩ => ⟨S50000x96, .f32⟩
  | .hbm, ⟨58, _⟩ => ⟨S50000x96, .f32⟩
  | .hbm, ⟨59, _⟩ => ⟨S50000x96, .f32⟩
  | .hbm, ⟨60, _⟩ => ⟨S50000x96, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x96, .f32⟩
  | .hbm, ⟨70, _⟩ => ⟨S_, .f32⟩
  | .hbm, ⟨71, _⟩ => ⟨S50000x96, .f32⟩
  | .hbm, ⟨72, _⟩ => ⟨S800000x1, .i32⟩
  | .hbm, ⟨73, _⟩ => ⟨S50000x96, .f32⟩
  | .hbm, ⟨74, _⟩ => ⟨S50000x96, .f32⟩
  | .hbm, ⟨75, _⟩ => ⟨S50000x96, .f32⟩
  | .hbm, ⟨76, _⟩ => ⟨S50000x96, .f32⟩
  | .hbm, ⟨77, _⟩ => ⟨S1x96, .f32⟩
  | .hbm, ⟨78, _⟩ => ⟨S50000x96, .f32⟩
  | .hbm, ⟨79, _⟩ => ⟨S50000x96, .f32⟩
  | .hbm, ⟨80, _⟩ => ⟨S_, .f32⟩
  | .hbm, ⟨81, _⟩ => ⟨S50000x96, .f32⟩
  | .hbm, ⟨82, _⟩ => ⟨S50000x96, .f32⟩
  | .hbm, ⟨83, _⟩ => ⟨S50000x96, .f32⟩
  | .hbm, ⟨84, _⟩ => ⟨S50000x96, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x96, .f32⟩
  | .hbm, ⟨94, _⟩ => ⟨S_, .f32⟩
  | .hbm, ⟨95, _⟩ => ⟨S50000x96, .f32⟩
  | .hbm, ⟨96, _⟩ => ⟨S800000x1, .i32⟩
  | .hbm, ⟨97, _⟩ => ⟨S50000x96, .f32⟩
  | .hbm, ⟨98, _⟩ => ⟨S50000x96, .f32⟩
  | .hbm, ⟨99, _⟩ => ⟨S50000x96, .f32⟩
  | .hbm, ⟨100, _⟩ => ⟨S50000x96, .f32⟩
  | .hbm, ⟨101, _⟩ => ⟨S1x96, .f32⟩
  | .hbm, ⟨102, _⟩ => ⟨S50000x96, .f32⟩
  | .hbm, ⟨103, _⟩ => ⟨S50000x96, .f32⟩
  | .hbm, ⟨104, _⟩ => ⟨S_, .f32⟩
  | .hbm, ⟨105, _⟩ => ⟨S50000x96, .f32⟩
  | .hbm, ⟨106, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call3_cst : Ref sig .tc := ⟨.hbm, 80, rfl⟩
abbrev main_call3_v0 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_11 : Ref sig .tc := ⟨.hbm, 85, rfl⟩
abbrev main_v55 : Ref sig .tc := ⟨.hbm, 86, rfl⟩
abbrev main_v56 : Ref sig .tc := ⟨.hbm, 87, rfl⟩
abbrev main_c_12 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call4_cst : Ref sig .tc := ⟨.hbm, 104, rfl⟩
abbrev main_call4_v0 : Ref sig .tc := ⟨.hbm, 105, rfl⟩
abbrev main_v71 : Ref sig .tc := ⟨.hbm, 106, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.Dense.lean ====
/-
  One dense stage of a graph convolution, on the extended reals, index by index: row `i 0` of the node matrix against
  column `i 1` of the weights, plus the bias entry, floored at zero by the rectifier. Over plain coordinates, so that
  a block of rows and the whole matrix are the same function of their rows (`dense_row`), and read off the two
  spellings a program gives it: a matrix-unit product into a zero accumulator with the bias reshaped to one row and
  broadcast down the rows (`vec_dense`), and the host's `dot_general` with the bias broadcast in two steps
  (`host_dense`). A change of float format is the identity on the extended reals, so the narrowed operands of the
  first spelling are the operands themselves.
-/
import proofs.«420361_j23003844838150_1_alg».proof.Proof.LibMlp

noncomputable section

open Idealize.ShloMosaic Idealize.ShloMosaic.ValueIdx Cert.Mlp

namespace Cert.Dense

/-- The stage: `max (sum_k a[i0, k] * W[k, i1] + b[i1]) 0`. -/
def dense {N K H : ℕ} (a : (⟨2, ![N, K]⟩ : Shape).Idx → EReal) (W : (⟨2, ![K, H]⟩ : Shape).Idx → EReal) (b : Fin H → EReal) :
    (⟨2, ![N, H]⟩ : Shape).Idx → EReal := fun i =>
  max ((∑ k : Fin K, a (ix2 (i 0) k) * W (ix2 k (i 1))) + b (i 1)) zero

/-- The stage reads only the row it is asked for. -/
theorem dense_row {N N' K H : ℕ} (a : (⟨2, ![N, K]⟩ : Shape).Idx → EReal) (a' : (⟨2, ![N', K]⟩ : Shape).Idx → EReal)
    (W : (⟨2, ![K, H]⟩ : Shape).Idx → EReal) (b : Fin H → EReal) (r : Fin N) (r' : Fin N') (j : Fin H)
    (h : ∀ k : Fin K, a (ix2 r k) = a' (ix2 r' k)) :
    dense a W b (ix2 r j) = dense a' W b (ix2 r' j) := by
  unfold dense
  have : (∑ k : Fin K, a (ix2 r k) * W (ix2 k j)) = ∑ k : Fin K, a' (ix2 r' k) * W (ix2 k j) :=
    Finset.sum_congr rfl fun k _ => by rw [h k]
  exact congrArg (fun s => max (s + b j) zero) this

/-- The stage at an index of one array against the stage at an index of another: equal when the weights and the bias
    are the same, the columns asked for are the same, and the two rows asked for hold the same entries. -/
theorem dense_congr {N N' K H : ℕ} (a : (⟨2, ![N, K]⟩ : Shape).Idx → EReal) (a' : (⟨2, ![N', K]⟩ : Shape).Idx → EReal)
    (W W' : (⟨2, ![K, H]⟩ : Shape).Idx → EReal) (b b' : Fin H → EReal)
    (i : (⟨2, ![N, H]⟩ : Shape).Idx) (i' : (⟨2, ![N', H]⟩ : Shape).Idx)
    (hW : W = W') (hb : b = b') (hcol : (i 1 : Fin H) = (i' 1 : Fin H))
    (ha : ∀ k : Fin K, a (ix2 (i 0) k) = a' (ix2 (i' 0) k)) :
    dense a W b i = dense a' W' b' i' := by
  subst hW hb
  unfold dense
  have hs : (∑ k : Fin K, a (ix2 (i 0) k) * W (ix2 k (i 1))) = ∑ k : Fin K, a' (ix2 (i' 0) k) * W (ix2 k (i' 1)) :=
    Finset.sum_congr rfl fun k _ => by rw [ha k, show (i 1 : Fin H) = i' 1 from hcol]
  show max ((∑ k : Fin K, a (ix2 (i 0) k) * W (ix2 k (i 1))) + b (i 1)) zero
    = max ((∑ k : Fin K, a' (ix2 (i' 0) k) * W (ix2 k (i' 1))) + b (i' 1)) zero
  rw [hs, show (i 1 : Fin H) = i' 1 from hcol]

/-- The vector dialect's spelling. -/
theorem vec_dense {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩) (hc : (⟨1, ![H]⟩ : Shape).ShapeCasts ⟨2, ![1, H]⟩)
    (a : FVec Ideal ⟨2, ![N, K]⟩ φa) (W : FVec Ideal ⟨2, ![K, H]⟩ φw) (b : FVec Ideal ⟨1, ![H]⟩ .f32) :
    maximumf (addf (matmul d none a W (constant ⟨2, ![N, H]⟩ .f32 0x00000000#32))
        (broadcastTo ⟨2, ![N, H]⟩ (shapeCast (⟨2, ![1, H]⟩ : Shape) b hc) hb))
      (broadcast ⟨2, ![N, H]⟩ (Scalar.ofBits .f32 0x00000000#32))
      = dense a W (vec b) := by
  subst hd
  rw [vec_relu]
  funext i
  obtain ⟨p, q, rfl⟩ : ∃ (p : Fin N) (q : Fin H), i = ix2 p q := ⟨i 0, i 1, eq_ix2 i⟩
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  have hbias : broadcastTo (⟨2, ![N, H]⟩ : Shape) (shapeCast (⟨2, ![1, H]⟩ : Shape) b hc) hb (ix2 p q) = vec b q := by
    rw [bcast_row hb _ p q]; exact congrFun (row_shapeCast b hc) q
  simp only [relu, addf_apply]
  rw [hm, hbias]
  rfl

/-- The host's spelling. -/
theorem host_dense {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨2, ![N, H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b : FVec Ideal ⟨1, ![H]⟩ .f32) :
    maximumf (addf (Host.dotGeneral d none a W)
        (broadcastInDim (⟨2, ![N, H]⟩ : Shape) ![0, 1] h2 (broadcastInDim (⟨2, ![1, H]⟩ : Shape) ![1] h1 b)))
      (broadcastInDim (⟨2, ![N, H]⟩ : Shape) ![] h0 (constant (⟨0, ![]⟩ : Shape) .f32 0x00000000#32))
      = dense a W (vec b) := by
  subst hd
  rw [host_relu]
  funext i
  obtain ⟨p, q, rfl⟩ : ∃ (p : Fin N) (q : Fin H), i = ix2 p q := ⟨i 0, i 1, eq_ix2 i⟩
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  simp only [relu, addf_apply]
  rw [hm, bcast_two h1 h2 b p q]
  rfl

end Cert.Dense

end
-- ==== Proof.Stages.lean ====
/-
  The stages both programs share, as whole-array functions on the extended reals, each kept OPAQUE: they are the same
  host operations on both sides and are never opened.
  `deg idx`    the number of edges whose index word lands on each node, floored at 1;
  `norm idx`   that degree to the power -1/2, as a column;
  `wrap src`   the source indices with NumPy's negative-index rule applied, as a column of start indices;
  `agg g x src dst`  one aggregation: scale the rows of `x` by `norm src`, fetch a row per edge with the gather `g`,
                add the fetched rows into the rows the destination indices name, scale by `norm dst`;
  `layer x W b`  the host's dense stage: `max (x · W + b) 0`.
-/
import proofs.«420361_j23003844838150_1_alg».proof.Proof.Gen.ReferenceIdeal
import proofs.«420361_j23003844838150_1_alg».proof.Proof.Dense

noncomputable section

open Idealize.ShloMosaic Cert.ReferenceIdeal Cert.ReferenceIdeal.Facts₀

namespace Cert.Gnn

/-- Edges per node, floored at one. -/
def deg (idx : IVec S800000 32) : FVec Ideal S50000 .f32 :=
  maximumf (broadcastInDim S50000 ![] bcast_S_S50000 (id (constant S_ .f32 0x3F800000#32)))
    (Host.scatterAdd scatter_S50000_S800000x1_S800000_n_0_0_1 (broadcastInDim S50000 ![] bcast_S_S50000 (constant S_ .f32 0x00000000#32))
      (broadcastInDim S800000x1 ![0] bcast_S800000_S800000x1_0 idx) (broadcastInDim S800000 ![] bcast_S_S800000 (constant S_ .f32 0x3F800000#32)))

/-- The degree to the power -1/2, as a column. -/
def norm (idx : IVec S800000 32) : FVec Ideal S50000x1 .f32 :=
  broadcastInDim S50000x1 ![0] bcast_S50000_S50000x1_0
    (Host.powf (deg idx) (broadcastInDim S50000 ![] bcast_S_S50000 (constant S_ .f32 0xBF000000#32)))

/-- The source indices, a negative one counted from the end, as a column of start indices. -/
def wrap (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The plain row gather. -/
def plainGather (x : FVec Ideal S50000x96 .f32) (i : IVec S800000x1 32) : FVec Ideal S800000x96 .f32 :=
  Host.gather gather_S50000x96_S800000x1_S800000x96_1_0_n_n_0_1_196 x i

/-- One aggregation over the edges, with the row gather `g`. -/
def agg (g : FVec Ideal S50000x96 .f32 → IVec S800000x1 32 → FVec Ideal S800000x96 .f32)
    (x : FVec Ideal S50000x96 .f32) (src dst : IVec S800000 32) : FVec Ideal S50000x96 .f32 :=
  mulf (Host.scatterAdd scatter_S50000x96_S800000x1_S800000x96_1_0_0_1
      (broadcastInDim S50000x96 ![] bcast_S_S50000x96 (constant S_ .f32 0x00000000#32))
      (broadcastInDim S800000x1 ![0] bcast_S800000_S800000x1_0 dst)
      (g (mulf x (broadcastInDim S50000x96 ![0, 1] bcast_S50000x1_S50000x96_0_1 (norm src))) (wrap src)))
    (broadcastInDim S50000x96 ![0, 1] bcast_S50000x1_S50000x96_0_1 (norm dst))

/-- The host's dense stage. -/
def layer (x : FVec Ideal S50000x96 .f32) (W : FVec Ideal S96x96 .f32) (b : FVec Ideal S96 .f32) : FVec Ideal S50000x96 .f32 :=
  maximumf (addf (Host.dotGeneral dot_S50000x96_S96x96_S50000x96_1_0_0_1_n_n none x W)
      (broadcastInDim S50000x96 ![0, 1] bcast_S1x96_S50000x96_0_1 (broadcastInDim S1x96 ![1] bcast_S96_S1x96_1 b)))
    (broadcastInDim S50000x96 ![] bcast_S_S50000x96 (constant S_ .f32 0x00000000#32))

/-- The host's dense stage is the index-by-index one. -/
theorem layer_eq (x : FVec Ideal S50000x96 .f32) (W : FVec Ideal S96x96 .f32) (b : FVec Ideal S96 .f32) :
    layer x W b = Cert.Dense.dense x W (Cert.Mlp.vec b) :=
  Cert.Dense.host_dense dot_S50000x96_S96x96_S50000x96_1_0_0_1_n_n rfl bcast_S_S50000x96 bcast_S96_S1x96_1 bcast_S1x96_S50000x96_0_1 x W b

/-- The whole network with the row gather `g` and the dense stage `L`: three rounds of aggregation and stage. -/
def net (g : FVec Ideal S50000x96 .f32 → IVec S800000x1 32 → FVec Ideal S800000x96 .f32)
    (L : FVec Ideal S50000x96 .f32 → FVec Ideal S96x96 .f32 → FVec Ideal S96 .f32 → FVec Ideal S50000x96 .f32)
    (h : FVec Ideal S50000x96 .f32) (src dst : IVec S800000 32)
    (W0 : FVec Ideal S96x96 .f32) (b0 : FVec Ideal S96 .f32) (W1 : FVec Ideal S96x96 .f32) (b1 : FVec Ideal S96 .f32)
    (W2 : FVec Ideal S96x96 .f32) (b2 : FVec Ideal S96 .f32) : FVec Ideal S50000x96 .f32 :=
  L (agg g (L (agg g (L (agg g h src dst) W0 b0) src dst) W1 b1) src dst) W2 b2

end Cert.Gnn

end
-- ==== Proof.KStages.lean ====
/-
  The kernel's row fetch: `jnp.take` in fill mode. The start indices are range-tested (`0 ≤ s ∧ s ≤ 49999`, signed),
  the tests reduced by `and` along the index column, and a fetched row kept where its test passed and replaced by the
  fill pattern where it did not. As a whole-array function of the table and the column of start indices.
-/
import proofs.«420361_j23003844838150_1_alg».proof.Proof.Gen.KernelIdeal
import proofs.«420361_j23003844838150_1_alg».proof.Proof.Stages

noncomputable section

open Idealize.ShloMosaic Cert.KernelIdeal Cert.KernelIdeal.Facts₀

namespace Cert.Gnn

/-- The range test of a column of start indices, one bit per edge. -/
def inRange (i : IVec S800000x1 32) : IVec S800000 1 :=
  Host.reduce IntOp.andi
    (andi (cmpi .sge i (broadcastInDim S800000x1 ![] bcast_S_S800000x1 (constantI S_ 32 0#32)))
      (cmpi .sle i (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The fill-mode row gather. -/
def fillGather (x : FVec Ideal S50000x96 .f32) (i : IVec S800000x1 32) : FVec Ideal S800000x96 .f32 :=
  select (broadcastInDim S800000x96 ![0] bcast_S800000_S800000x96_0 (inRange i))
    (Host.gather gather_S50000x96_S800000x1_S800000x96_1_0_n_n_0_1_196 x i)
    (broadcastInDim S800000x96 ![] bcast_S_S800000x96 (constant S_ .f32 0x7FC00000#32))

end Cert.Gnn

end
-- ==== Proof.Region0.lean ====
/-
  Region 0 of the program, as a whole-array function. Each of the ten grid points loads a block of 5000 rows of the
  node matrix, the whole weight matrix and the whole bias, and stores the dense stage of them into the matching block
  of 5000 rows of the output. The dense stage reads only the row it is asked for, so block `t` of the output is block
  `t` of the dense stage of the WHOLE node matrix; the ten blocks tile the 50000 rows, so the output array ends holding
  that stage everywhere.
-/
import proofs.«420361_j23003844838150_1_alg».proof.Proof.Gen.KernelIdeal.Frame
import proofs.«420361_j23003844838150_1_alg».proof.Proof.Dense

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's one stored value is the dense stage of its three loaded blocks. -/
theorem pay_eq (x0 : Vec Ideal S5000x96 .f32) (x1 : Vec Ideal S96x96 .f32) (x2 : Vec Ideal S96 .f32) :
    k0_pay1 x0 x1 x2 = Cert.Dense.dense x0 x1 (Cert.Mlp.vec x2) := by
  unfold k0_pay1
  rw [shapeCast_self]
  exact Cert.Dense.vec_dense dot_S5000x96_S96x96_S5000x96_1_0_0_1_n_n rfl Facts₀.broadcasts_S1x96_S5000x96 Facts₀.shapeCasts_S96_S1x96 x0 x1 x2

/-- What the region's output array ends holding: the dense stage of the arrays the region finds. -/
abbrev G (c : Dev nD) : S50000x96.Idx → EReal :=
  Cert.Dense.dense (V c main_v22 : S50000x96.Idx → EReal) (V c main_arg3 : S96x96.Idx → EReal) (Cert.Mlp.vec (V c main_arg4 : S96.Idx → EReal))

/-- The printed index maps, decided over the grid: the node matrix's window and the output's window sit at block row
    `t`, block column 0; the weights' and the bias's windows at block 0. -/
theorem idx_facts : ∀ t : Fin cfg0.N, win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 1) = 0 :=
  (by decide +kernel : ∀ t : Fin grid0.N, _)

/-- The weights' window at any point is the whole weight matrix. -/
theorem blk_w (c : Dev nD) (t : Fin cfg0.N) : (iblk0 V c 1 t : S96x96.Idx → EReal) = (V c main_arg3 : S96x96.Idx → EReal) := by
  obtain ⟨-, -, -, -, e4, e5, -⟩ := idx_facts t
  funext y
  show (V c main_arg3 : S96x96.Idx → EReal) (((cfg0.win 1).blk t).view.emb y) = (V c main_arg3 : S96x96.Idx → EReal) y
  refine congrArg _ (funext fun a => Fin.ext ?_)
  match a with
  | ⟨0, _⟩ => show win0_1.index t (0 : Fin 2) * 96 + 1 * (y 0).val = (y 0).val; omega
  | ⟨1, _⟩ => show win0_1.index t (1 : Fin 2) * 96 + 1 * (y 1).val = (y 1).val; omega

/-- The bias's window at any point is the whole bias. -/
theorem blk_b (c : Dev nD) (t : Fin cfg0.N) : (iblk0 V c 2 t : S96.Idx → EReal) = (V c main_arg4 : S96.Idx → EReal) := by
  obtain ⟨-, -, -, -, -, -, e6⟩ := idx_facts t
  funext y
  show (V c main_arg4 : S96.Idx → EReal) (((cfg0.win 2).blk t).view.emb y) = (V c main_arg4 : S96.Idx → EReal) y
  refine congrArg _ (funext fun a => Fin.ext ?_)
  match a with
  | ⟨0, _⟩ => show win0_2.index t (0 : Fin 1) * 96 + 1 * (y 0).val = (y 0).val; omega

theorem flushed_eq (c : Dev nD) (t : Fin cfg0.N) :
    (dat0 (F := Ideal) V c).flushed 3 t = ((cfg0.win 3).blk t).view.read (Elt Ideal) (G V c) := by
  show (cfg0.win 3).cut (grid0.coords t) ((dat0 V c).after 3 t) = _
  rw [after0_3]
  unfold out0_3
  rw [View.canon_unit_zero hz2]
  simp only [View.ld_unit_zero (S := S5000x96) hz2, View.ld_unit_zero (S := S96x96) hz2, View.ld_unit_zero (S := S96) hz1]
  rw [pay_eq]
  funext j
  show Cert.Dense.dense (N := 5000) (K := 96) (H := 96) (iblk0 V c 0 t) (iblk0 V c 1 t) (Cert.Mlp.vec (iblk0 V c 2 t)) j
    = G V c (((cfg0.win 3).blk t).view.emb j)
  obtain ⟨e0, e1, e2, e3, -, -, -⟩ := idx_facts t
  refine Cert.Dense.dense_congr (N := 5000) (N' := 50000) (K := 96) (H := 96) _ _ _ _ _ _ j _ (blk_w V c t)
    (congrArg Cert.Mlp.vec (blk_b V c t)) ?_ fun k => ?_
  · apply Fin.ext
    show (j 1).val = win0_3.index t (1 : Fin 2) * 96 + 1 * (j 1).val
    omega
  · show (V c main_v22 : S50000x96.Idx → EReal) (((cfg0.win 0).blk t).view.emb (ix2 (j 0) k)) = (V c main_v22 : S50000x96.Idx → EReal) (ix2 ((((cfg0.win 3).blk t).view.emb j) 0) k)
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 96 + 1 * k.val = k.val; omega

/-- An index of the output array is in point `t`'s block iff each coordinate is in the block's range on its axis. -/
theorem mem_blk (t : Fin cfg0.N) (i : S50000x96.Idx) :
    i ∈ ((cfg0.win 3).blk t).view.set ↔ ∀ a : Fin 2, win0_3.index t a * S5000x96.size a ≤ (i a).val ∧ (i a).val < win0_3.index t a * S5000x96.size a + S5000x96.size a := by
  show i ∈ ((View.whole main_v23).slice (win0_3.rect t)).set ↔ _
  rw [View.set_slice_whole, Rect.mem_set_unit]
  exact Iff.rfl

/-- The ten blocks of 5000 rows tile the 50000 rows: row `r` is in the block of point `r / 5000`. -/
theorem cover (i : S50000x96.Idx) : ∃ t : Fin cfg0.N, (cfg0.win 3).flush t = true ∧ i ∈ ((cfg0.win 3).blk t).view.set := by
  have hi0 : (i 0).val < 50000 := (i 0).isLt
  have hi1 : (i 1).val < 96 := (i 1).isLt
  have hN : grid0.N = 10 := N_0
  let t : Fin cfg0.N := ⟨(i 0).val / 5000, by show _ < grid0.N; omega⟩
  obtain ⟨-, -, e2, e3, -, -, -⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 96 ≤ (i 1).val ∧ (i 1).val < win0_3.index t (1 : Fin 2) * 96 + 96; omega

/-- THE OUTPUT ARRAY after the region: the dense stage of the arrays the region finds, everywhere. -/
theorem final (c : Dev nD) : (dat0 (F := Ideal) V c).arrAt 3 cfg0.N = G V c :=
  (dat0 V c).arrAt_eq_of_cover 3 (G V c) (fun t _ => flushed_eq V c t) cover

end Cert.KernelIdeal.Region0

end
-- ==== Proof.Region1.lean ====
/-
  Region 1 of the program, as a whole-array function. Each of the ten grid points loads a block of 5000 rows of the
  node matrix, the whole weight matrix and the whole bias, and stores the dense stage of them into the matching block
  of 5000 rows of the output. The dense stage reads only the row it is asked for, so block `t` of the output is block
  `t` of the dense stage of the WHOLE node matrix; the ten blocks tile the 50000 rows, so the output array ends holding
  that stage everywhere.
-/
import proofs.«420361_j23003844838150_1_alg».proof.Proof.Gen.KernelIdeal.Frame
import proofs.«420361_j23003844838150_1_alg».proof.Proof.Dense

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's one stored value is the dense stage of its three loaded blocks. -/
theorem pay_eq (x0 : Vec Ideal S5000x96 .f32) (x1 : Vec Ideal S96x96 .f32) (x2 : Vec Ideal S96 .f32) :
    k1_pay1 x0 x1 x2 = Cert.Dense.dense x0 x1 (Cert.Mlp.vec x2) := by
  unfold k1_pay1
  rw [shapeCast_self]
  exact Cert.Dense.vec_dense dot_S5000x96_S96x96_S5000x96_1_0_0_1_n_n rfl Facts₀.broadcasts_S1x96_S5000x96 Facts₀.shapeCasts_S96_S1x96 x0 x1 x2

/-- What the region's output array ends holding: the dense stage of the arrays the region finds. -/
abbrev G (c : Dev nD) : S50000x96.Idx → EReal :=
  Cert.Dense.dense (V c main_v31 : S50000x96.Idx → EReal) (V c main_arg5 : S96x96.Idx → EReal) (Cert.Mlp.vec (V c main_arg6 : S96.Idx → EReal))

/-- The printed index maps, decided over the grid: the node matrix's window and the output's window sit at block row
    `t`, block column 0; the weights' and the bias's windows at block 0. -/
theorem idx_facts : ∀ t : Fin cfg1.N, win1_0.index t (0 : Fin 2) = t.val ∧ win1_0.index t (1 : Fin 2) = 0
    ∧ win1_3.index t (0 : Fin 2) = t.val ∧ win1_3.index t (1 : Fin 2) = 0
    ∧ win1_1.index t (0 : Fin 2) = 0 ∧ win1_1.index t (1 : Fin 2) = 0
    ∧ win1_2.index t (0 : Fin 1) = 0 :=
  (by decide +kernel : ∀ t : Fin grid1.N, _)

/-- The weights' window at any point is the whole weight matrix. -/
theorem blk_w (c : Dev nD) (t : Fin cfg1.N) : (iblk1 V c 1 t : S96x96.Idx → EReal) = (V c main_arg5 : S96x96.Idx → EReal) := by
  obtain ⟨-, -, -, -, e4, e5, -⟩ := idx_facts t
  funext y
  show (V c main_arg5 : S96x96.Idx → EReal) (((cfg1.win 1).blk t).view.emb y) = (V c main_arg5 : S96x96.Idx → EReal) y
  refine congrArg _ (funext fun a => Fin.ext ?_)
  match a with
  | ⟨0, _⟩ => show win1_1.index t (0 : Fin 2) * 96 + 1 * (y 0).val = (y 0).val; omega
  | ⟨1, _⟩ => show win1_1.index t (1 : Fin 2) * 96 + 1 * (y 1).val = (y 1).val; omega

/-- The bias's window at any point is the whole bias. -/
theorem blk_b (c : Dev nD) (t : Fin cfg1.N) : (iblk1 V c 2 t : S96.Idx → EReal) = (V c main_arg6 : S96.Idx → EReal) := by
  obtain ⟨-, -, -, -, -, -, e6⟩ := idx_facts t
  funext y
  show (V c main_arg6 : S96.Idx → EReal) (((cfg1.win 2).blk t).view.emb y) = (V c main_arg6 : S96.Idx → EReal) y
  refine congrArg _ (funext fun a => Fin.ext ?_)
  match a with
  | ⟨0, _⟩ => show win1_2.index t (0 : Fin 1) * 96 + 1 * (y 0).val = (y 0).val; omega

theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_3]
  unfold out1_3
  rw [View.canon_unit_zero hz2]
  simp only [View.ld_unit_zero (S := S5000x96) hz2, View.ld_unit_zero (S := S96x96) hz2, View.ld_unit_zero (S := S96) hz1]
  rw [pay_eq]
  funext j
  show Cert.Dense.dense (N := 5000) (K := 96) (H := 96) (iblk1 V c 0 t) (iblk1 V c 1 t) (Cert.Mlp.vec (iblk1 V c 2 t)) j
    = G V c (((cfg1.win 3).blk t).view.emb j)
  obtain ⟨e0, e1, e2, e3, -, -, -⟩ := idx_facts t
  refine Cert.Dense.dense_congr (N := 5000) (N' := 50000) (K := 96) (H := 96) _ _ _ _ _ _ j _ (blk_w V c t)
    (congrArg Cert.Mlp.vec (blk_b V c t)) ?_ fun k => ?_
  · apply Fin.ext
    show (j 1).val = win1_3.index t (1 : Fin 2) * 96 + 1 * (j 1).val
    omega
  · show (V c main_v31 : S50000x96.Idx → EReal) (((cfg1.win 0).blk t).view.emb (ix2 (j 0) k)) = (V c main_v31 : S50000x96.Idx → EReal) (ix2 ((((cfg1.win 3).blk t).view.emb j) 0) k)
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 96 + 1 * k.val = k.val; omega

/-- An index of the output array is in point `t`'s block iff each coordinate is in the block's range on its axis. -/
theorem mem_blk (t : Fin cfg1.N) (i : S50000x96.Idx) :
    i ∈ ((cfg1.win 3).blk t).view.set ↔ ∀ a : Fin 2, win1_3.index t a * S5000x96.size a ≤ (i a).val ∧ (i a).val < win1_3.index t a * S5000x96.size a + S5000x96.size a := by
  show i ∈ ((View.whole main_v32).slice (win1_3.rect t)).set ↔ _
  rw [View.set_slice_whole, Rect.mem_set_unit]
  exact Iff.rfl

/-- The ten blocks of 5000 rows tile the 50000 rows: row `r` is in the block of point `r / 5000`. -/
theorem cover (i : S50000x96.Idx) : ∃ t : Fin cfg1.N, (cfg1.win 3).flush t = true ∧ i ∈ ((cfg1.win 3).blk t).view.set := by
  have hi0 : (i 0).val < 50000 := (i 0).isLt
  have hi1 : (i 1).val < 96 := (i 1).isLt
  have hN : grid1.N = 10 := N_1
  let t : Fin cfg1.N := ⟨(i 0).val / 5000, by show _ < grid1.N; omega⟩
  obtain ⟨-, -, e2, e3, -, -, -⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 96 ≤ (i 1).val ∧ (i 1).val < win1_3.index t (1 : Fin 2) * 96 + 96; omega

/-- THE OUTPUT ARRAY after the region: the dense stage of the arrays the region finds, everywhere. -/
theorem final (c : Dev nD) : (dat1 (F := Ideal) V c).arrAt 3 cfg1.N = G V c :=
  (dat1 V c).arrAt_eq_of_cover 3 (G V c) (fun t _ => flushed_eq V c t) cover

end Cert.KernelIdeal.Region1

end
-- ==== Proof.Region2.lean ====
/-
  Region 2 of the program, as a whole-array function. Each of the ten grid points loads a block of 5000 rows of the
  node matrix, the whole weight matrix and the whole bias, and stores the dense stage of them into the matching block
  of 5000 rows of the output. The dense stage reads only the row it is asked for, so block `t` of the output is block
  `t` of the dense stage of the WHOLE node matrix; the ten blocks tile the 50000 rows, so the output array ends holding
  that stage everywhere.
-/
import proofs.«420361_j23003844838150_1_alg».proof.Proof.Gen.KernelIdeal.Frame
import proofs.«420361_j23003844838150_1_alg».proof.Proof.Dense

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's one stored value is the dense stage of its three loaded blocks. -/
theorem pay_eq (x0 : Vec Ideal S5000x96 .f32) (x1 : Vec Ideal S96x96 .f32) (x2 : Vec Ideal S96 .f32) :
    k2_pay1 x0 x1 x2 = Cert.Dense.dense x0 x1 (Cert.Mlp.vec x2) := by
  unfold k2_pay1
  rw [shapeCast_self]
  exact Cert.Dense.vec_dense dot_S5000x96_S96x96_S5000x96_1_0_0_1_n_n rfl Facts₀.broadcasts_S1x96_S5000x96 Facts₀.shapeCasts_S96_S1x96 x0 x1 x2

/-- What the region's output array ends holding: the dense stage of the arrays the region finds. -/
abbrev G (c : Dev nD) : S50000x96.Idx → EReal :=
  Cert.Dense.dense (V c main_v40 : S50000x96.Idx → EReal) (V c main_arg7 : S96x96.Idx → EReal) (Cert.Mlp.vec (V c main_arg8 : S96.Idx → EReal))

/-- The printed index maps, decided over the grid: the node matrix's window and the output's window sit at block row
    `t`, block column 0; the weights' and the bias's windows at block 0. -/
theorem idx_facts : ∀ t : Fin cfg2.N, win2_0.index t (0 : Fin 2) = t.val ∧ win2_0.index t (1 : Fin 2) = 0
    ∧ win2_3.index t (0 : Fin 2) = t.val ∧ win2_3.index t (1 : Fin 2) = 0
    ∧ win2_1.index t (0 : Fin 2) = 0 ∧ win2_1.index t (1 : Fin 2) = 0
    ∧ win2_2.index t (0 : Fin 1) = 0 :=
  (by decide +kernel : ∀ t : Fin grid2.N, _)

/-- The weights' window at any point is the whole weight matrix. -/
theorem blk_w (c : Dev nD) (t : Fin cfg2.N) : (iblk2 V c 1 t : S96x96.Idx → EReal) = (V c main_arg7 : S96x96.Idx → EReal) := by
  obtain ⟨-, -, -, -, e4, e5, -⟩ := idx_facts t
  funext y
  show (V c main_arg7 : S96x96.Idx → EReal) (((cfg2.win 1).blk t).view.emb y) = (V c main_arg7 : S96x96.Idx → EReal) y
  refine congrArg _ (funext fun a => Fin.ext ?_)
  match a with
  | ⟨0, _⟩ => show win2_1.index t (0 : Fin 2) * 96 + 1 * (y 0).val = (y 0).val; omega
  | ⟨1, _⟩ => show win2_1.index t (1 : Fin 2) * 96 + 1 * (y 1).val = (y 1).val; omega

/-- The bias's window at any point is the whole bias. -/
theorem blk_b (c : Dev nD) (t : Fin cfg2.N) : (iblk2 V c 2 t : S96.Idx → EReal) = (V c main_arg8 : S96.Idx → EReal) := by
  obtain ⟨-, -, -, -, -, -, e6⟩ := idx_facts t
  funext y
  show (V c main_arg8 : S96.Idx → EReal) (((cfg2.win 2).blk t).view.emb y) = (V c main_arg8 : S96.Idx → EReal) y
  refine congrArg _ (funext fun a => Fin.ext ?_)
  match a with
  | ⟨0, _⟩ => show win2_2.index t (0 : Fin 1) * 96 + 1 * (y 0).val = (y 0).val; omega

theorem flushed_eq (c : Dev nD) (t : Fin cfg2.N) :
    (dat2 (F := Ideal) V c).flushed 3 t = ((cfg2.win 3).blk t).view.read (Elt Ideal) (G V c) := by
  show (cfg2.win 3).cut (grid2.coords t) ((dat2 V c).after 3 t) = _
  rw [after2_3]
  unfold out2_3
  rw [View.canon_unit_zero hz2]
  simp only [View.ld_unit_zero (S := S5000x96) hz2, View.ld_unit_zero (S := S96x96) hz2, View.ld_unit_zero (S := S96) hz1]
  rw [pay_eq]
  funext j
  show Cert.Dense.dense (N := 5000) (K := 96) (H := 96) (iblk2 V c 0 t) (iblk2 V c 1 t) (Cert.Mlp.vec (iblk2 V c 2 t)) j
    = G V c (((cfg2.win 3).blk t).view.emb j)
  obtain ⟨e0, e1, e2, e3, -, -, -⟩ := idx_facts t
  refine Cert.Dense.dense_congr (N := 5000) (N' := 50000) (K := 96) (H := 96) _ _ _ _ _ _ j _ (blk_w V c t)
    (congrArg Cert.Mlp.vec (blk_b V c t)) ?_ fun k => ?_
  · apply Fin.ext
    show (j 1).val = win2_3.index t (1 : Fin 2) * 96 + 1 * (j 1).val
    omega
  · show (V c main_v40 : S50000x96.Idx → EReal) (((cfg2.win 0).blk t).view.emb (ix2 (j 0) k)) = (V c main_v40 : S50000x96.Idx → EReal) (ix2 ((((cfg2.win 3).blk t).view.emb j) 0) k)
    refine congrArg _ (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 96 + 1 * k.val = k.val; omega

/-- An index of the output array is in point `t`'s block iff each coordinate is in the block's range on its axis. -/
theorem mem_blk (t : Fin cfg2.N) (i : S50000x96.Idx) :
    i ∈ ((cfg2.win 3).blk t).view.set ↔ ∀ a : Fin 2, win2_3.index t a * S5000x96.size a ≤ (i a).val ∧ (i a).val < win2_3.index t a * S5000x96.size a + S5000x96.size a := by
  show i ∈ ((View.whole main_v41).slice (win2_3.rect t)).set ↔ _
  rw [View.set_slice_whole, Rect.mem_set_unit]
  exact Iff.rfl

/-- The ten blocks of 5000 rows tile the 50000 rows: row `r` is in the block of point `r / 5000`. -/
theorem cover (i : S50000x96.Idx) : ∃ t : Fin cfg2.N, (cfg2.win 3).flush t = true ∧ i ∈ ((cfg2.win 3).blk t).view.set := by
  have hi0 : (i 0).val < 50000 := (i 0).isLt
  have hi1 : (i 1).val < 96 := (i 1).isLt
  have hN : grid2.N = 10 := N_2
  let t : Fin cfg2.N := ⟨(i 0).val / 5000, by show _ < grid2.N; omega⟩
  obtain ⟨-, -, e2, e3, -, -, -⟩ := idx_facts t
  have ht : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 96 ≤ (i 1).val ∧ (i 1).val < win2_3.index t (1 : Fin 2) * 96 + 96; omega

/-- THE OUTPUT ARRAY after the region: the dense stage of the arrays the region finds, everywhere. -/
theorem final (c : Dev nD) : (dat2 (F := Ideal) V c).arrAt 3 cfg2.N = G V c :=
  (dat2 V c).arrAt_eq_of_cover 3 (G V c) (fun t _ => flushed_eq V c t) cover

end Cert.KernelIdeal.Region2

end
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.KernelValue.lean ====
/-
  The kernel's result array as a function of the argument arrays. Between the regions the program's host operations are
  the shared stages (Stages.lean): the two degree norms, and before each region one aggregation over the edges with the
  fill-mode row gather. Each region leaves the dense stage of what it finds (Region0/1/2.lean). Read through the
  buffer contents at the segment boundaries, the result is three rounds of aggregation and dense stage.
-/
import proofs.«420361_j23003844838150_1_alg».proof.Proof.Gen.KernelIdeal.Frame
import proofs.«420361_j23003844838150_1_alg».proof.Proof.KStages
import proofs.«420361_j23003844838150_1_alg».proof.Proof.Region0
import proofs.«420361_j23003844838150_1_alg».proof.Proof.Region1
import proofs.«420361_j23003844838150_1_alg».proof.Proof.Region2
import proofs.«420361_j23003844838150_1_alg».proof.Proof.LibTRef

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## Typed references at literal buffers

A module-local function's operations move a value to its buffer's own type and back along an equation of types that is
`rfl` once the buffer is a literal; at the buffers where such a function meets @main's own operations the move is the
identity. One line per buffer. -/

theorem ofBuf_cst_1 (h1 : main_cst_1.ty = ⟨S_, .f32⟩) (h2 : main_cst_1.space ≠ .host) (h3 : main_cst_1.isScoped = false)
    (v : (⟨S_, .f32⟩ : BufTy).Contents (Elt Ideal)) :
    (TRef.of (sig := sig) (T := ⟨S_, .f32⟩) main_cst_1 h1 h2 h3).ofBuf v = v := rfl
theorem ofBuf_cst_3 (h1 : main_cst_3.ty = ⟨S_, .f32⟩) (h2 : main_cst_3.space ≠ .host) (h3 : main_cst_3.isScoped = false)
    (v : (⟨S_, .f32⟩ : BufTy).Contents (Elt Ideal)) :
    (TRef.of (sig := sig) (T := ⟨S_, .f32⟩) main_cst_3 h1 h2 h3).ofBuf v = v := rfl
theorem ofBuf_v3 (h1 : main_v3.ty = ⟨S50000, .f32⟩) (h2 : main_v3.space ≠ .host) (h3 : main_v3.isScoped = false)
    (v : (⟨S50000, .f32⟩ : BufTy).Contents (Elt Ideal)) :
    (TRef.of (sig := sig) (T := ⟨S50000, .f32⟩) main_v3 h1 h2 h3).ofBuf v = v := rfl
theorem ofBuf_v7 (h1 : main_v7.ty = ⟨S50000, .f32⟩) (h2 : main_v7.space ≠ .host) (h3 : main_v7.isScoped = false)
    (v : (⟨S50000, .f32⟩ : BufTy).Contents (Elt Ideal)) :
    (TRef.of (sig := sig) (T := ⟨S50000, .f32⟩) main_v7 h1 h2 h3).ofBuf v = v := rfl
theorem ofBuf_arg1 (h1 : main_arg1.ty = ⟨S800000, .i32⟩) (h2 : main_arg1.space ≠ .host) (h3 : main_arg1.isScoped = false)
    (v : (⟨S800000, .i32⟩ : BufTy).Contents (Elt Ideal)) :
    (TRef.of (sig := sig) (T := ⟨S800000, .i32⟩) main_arg1 h1 h2 h3).ofBuf v = v := rfl
theorem ofBuf_v16 (h1 : main_v16.ty = ⟨S50000x96, .f32⟩) (h2 : main_v16.space ≠ .host) (h3 : main_v16.isScoped = false)
    (v : (⟨S50000x96, .f32⟩ : BufTy).Contents (Elt Ideal)) :
    (TRef.of (sig := sig) (T := ⟨S50000x96, .f32⟩) main_v16 h1 h2 h3).ofBuf v = v := rfl
theorem ofBuf_v25 (h1 : main_v25.ty = ⟨S50000x96, .f32⟩) (h2 : main_v25.space ≠ .host) (h3 : main_v25.isScoped = false)
    (v : (⟨S50000x96, .f32⟩ : BufTy).Contents (Elt Ideal)) :
    (TRef.of (sig := sig) (T := ⟨S50000x96, .f32⟩) main_v25 h1 h2 h3).ofBuf v = v := rfl
theorem ofBuf_v34 (h1 : main_v34.ty = ⟨S50000x96, .f32⟩) (h2 : main_v34.space ≠ .host) (h3 : main_v34.isScoped = false)
    (v : (⟨S50000x96, .f32⟩ : BufTy).Contents (Elt Ideal)) :
    (TRef.of (sig := sig) (T := ⟨S50000x96, .f32⟩) main_v34 h1 h2 h3).ofBuf v = v := rfl
theorem toBuf_v4 (h1 : main_v4.ty = ⟨S50000, .f32⟩) (h2 : main_v4.space ≠ .host) (h3 : main_v4.isScoped = false)
    (v : (⟨S50000, .f32⟩ : BufTy).Contents (Elt Ideal)) :
    (TRef.of (sig := sig) (T := ⟨S50000, .f32⟩) main_v4 h1 h2 h3).toBuf v = v := rfl
theorem toBuf_v8 (h1 : main_v8.ty = ⟨S50000, .f32⟩) (h2 : main_v8.space ≠ .host) (h3 : main_v8.isScoped = false)
    (v : (⟨S50000, .f32⟩ : BufTy).Contents (Elt Ideal)) :
    (TRef.of (sig := sig) (T := ⟨S50000, .f32⟩) main_v8 h1 h2 h3).toBuf v = v := rfl
theorem toBuf_v17 (h1 : main_v17.ty = ⟨S800000x96, .f32⟩) (h2 : main_v17.space ≠ .host) (h3 : main_v17.isScoped = false)
    (v : (⟨S800000x96, .f32⟩ : BufTy).Contents (Elt Ideal)) :
    (TRef.of (sig := sig) (T := ⟨S800000x96, .f32⟩) main_v17 h1 h2 h3).toBuf v = v := rfl
theorem toBuf_v26 (h1 : main_v26.ty = ⟨S800000x96, .f32⟩) (h2 : main_v26.space ≠ .host) (h3 : main_v26.isScoped = false)
    (v : (⟨S800000x96, .f32⟩ : BufTy).Contents (Elt Ideal)) :
    (TRef.of (sig := sig) (T := ⟨S800000x96, .f32⟩) main_v26 h1 h2 h3).toBuf v = v := rfl
theorem toBuf_v35 (h1 : main_v35.ty = ⟨S800000x96, .f32⟩) (h2 : main_v35.space ≠ .host) (h3 : main_v35.isScoped = false)
    (v : (⟨S800000x96, .f32⟩ : BufTy).Contents (Elt Ideal)) :
    (TRef.of (sig := sig) (T := ⟨S800000x96, .f32⟩) main_v35 h1 h2 h3).toBuf v = v := rfl

/-! ## Region 0's entry (boundary 7): the norms, the first aggregation, the arguments -/

theorem W7_v11 (c : Dev nD) : W7 m ρ c (Proc.devRef .tc main_v11) = Cert.Gnn.norm (m ((c : Thread nD τ).loc main_arg1)) := by
  dsimp only [W7, W6, W5, W4, W3, W2, W1]
  simp only [hostOps0, hostOps0_1, hostOps0_2, hostOps0_3, hostOps0_4, hostOps0_5, hostOps0_6]
  after_results_simp
  simp only [TRef.ofBuf_toBuf, TRef.toBuf_ofBuf, ofBuf_cst_1, ofBuf_cst_3, ofBuf_v3, ofBuf_v7, ofBuf_arg1, ofBuf_v16, ofBuf_v25, ofBuf_v34, toBuf_v4, toBuf_v8, toBuf_v17, toBuf_v26, toBuf_v35]
  unfold Cert.Gnn.norm Cert.Gnn.deg
  rfl

theorem W7_v14 (c : Dev nD) : W7 m ρ c (Proc.devRef .tc main_v14) = Cert.Gnn.norm (m ((c : Thread nD τ).loc main_arg2)) := by
  dsimp only [W7, W6, W5, W4, W3, W2, W1]
  simp only [hostOps0, hostOps0_1, hostOps0_2, hostOps0_3, hostOps0_4, hostOps0_5, hostOps0_6]
  after_results_simp
  simp only [TRef.ofBuf_toBuf, TRef.toBuf_ofBuf, ofBuf_cst_1, ofBuf_cst_3, ofBuf_v3, ofBuf_v7, ofBuf_arg1, ofBuf_v16, ofBuf_v25, ofBuf_v34, toBuf_v4, toBuf_v8, toBuf_v17, toBuf_v26, toBuf_v35]
  unfold Cert.Gnn.norm Cert.Gnn.deg
  rfl

theorem W7_v22 (c : Dev nD) : W7 m ρ c (Proc.devRef .tc main_v22) = (Cert.Gnn.agg Cert.Gnn.fillGather (m ((c : Thread nD τ).loc main_arg0)) (m ((c : Thread nD τ).loc main_arg1)) (m ((c : Thread nD τ).loc main_arg2))) := by
  dsimp only [W7, W6, W5, W4, W3, W2, W1]
  simp only [hostOps0, hostOps0_1, hostOps0_2, hostOps0_3, hostOps0_4, hostOps0_5, hostOps0_6]
  after_results_simp
  simp only [TRef.ofBuf_toBuf, TRef.toBuf_ofBuf, ofBuf_cst_1, ofBuf_cst_3, ofBuf_v3, ofBuf_v7, ofBuf_arg1, ofBuf_v16, ofBuf_v25, ofBuf_v34, toBuf_v4, toBuf_v8, toBuf_v17, toBuf_v26, toBuf_v35]
  unfold Cert.Gnn.agg Cert.Gnn.fillGather Cert.Gnn.inRange Cert.Gnn.wrap Cert.Gnn.norm Cert.Gnn.deg
  rfl

theorem W7_arg1 (c : Dev nD) : W7 m ρ c (Proc.devRef .tc main_arg1) = (m ((c : Thread nD τ).loc main_arg1)) := by
  dsimp only [W7, W6, W5, W4, W3, W2, W1]
  simp only [hostOps0, hostOps0_1, hostOps0_2, hostOps0_3, hostOps0_4, hostOps0_5, hostOps0_6]
  after_results_simp

theorem W7_arg2 (c : Dev nD) : W7 m ρ c (Proc.devRef .tc main_arg2) = (m ((c : Thread nD τ).loc main_arg2)) := by
  dsimp only [W7, W6, W5, W4, W3, W2, W1]
  simp only [hostOps0, hostOps0_1, hostOps0_2, hostOps0_3, hostOps0_4, hostOps0_5, hostOps0_6]
  after_results_simp

theorem W7_arg3 (c : Dev nD) : W7 m ρ c (Proc.devRef .tc main_arg3) = (m ((c : Thread nD τ).loc main_arg3)) := by
  dsimp only [W7, W6, W5, W4, W3, W2, W1]
  simp only [hostOps0, hostOps0_1, hostOps0_2, hostOps0_3, hostOps0_4, hostOps0_5, hostOps0_6]
  after_results_simp

theorem W7_arg4 (c : Dev nD) : W7 m ρ c (Proc.devRef .tc main_arg4) = (m ((c : Thread nD τ).loc main_arg4)) := by
  dsimp only [W7, W6, W5, W4, W3, W2, W1]
  simp only [hostOps0, hostOps0_1, hostOps0_2, hostOps0_3, hostOps0_4, hostOps0_5, hostOps0_6]
  after_results_simp

theorem W7_arg5 (c : Dev nD) : W7 m ρ c (Proc.devRef .tc main_arg5) = (m ((c : Thread nD τ).loc main_arg5)) := by
  dsimp only [W7, W6, W5, W4, W3, W2, W1]
  simp only [hostOps0, hostOps0_1, hostOps0_2, hostOps0_3, hostOps0_4, hostOps0_5, hostOps0_6]
  after_results_simp

theorem W7_arg6 (c : Dev nD) : W7 m ρ c (Proc.devRef .tc main_arg6) = (m ((c : Thread nD τ).loc main_arg6)) := by
  dsimp only [W7, W6, W5, W4, W3, W2, W1]
  simp only [hostOps0, hostOps0_1, hostOps0_2, hostOps0_3, hostOps0_4, hostOps0_5, hostOps0_6]
  after_results_simp

theorem W7_arg7 (c : Dev nD) : W7 m ρ c (Proc.devRef .tc main_arg7) = (m ((c : Thread nD τ).loc main_arg7)) := by
  dsimp only [W7, W6, W5, W4, W3, W2, W1]
  simp only [hostOps0, hostOps0_1, hostOps0_2, hostOps0_3, hostOps0_4, hostOps0_5, hostOps0_6]
  after_results_simp

theorem W7_arg8 (c : Dev nD) : W7 m ρ c (Proc.devRef .tc main_arg8) = (m ((c : Thread nD τ).loc main_arg8)) := by
  dsimp only [W7, W6, W5, W4, W3, W2, W1]
  simp only [hostOps0, hostOps0_1, hostOps0_2, hostOps0_3, hostOps0_4, hostOps0_5, hostOps0_6]
  after_results_simp

/-! ## Region 0's exit (boundary 8) -/

theorem W8_v23 (c : Dev nD) : W8 m ρ c (Proc.devRef .tc main_v23) = (Cert.Dense.dense (Cert.Gnn.agg Cert.Gnn.fillGather (m ((c : Thread nD τ).loc main_arg0)) (m ((c : Thread nD τ).loc main_arg1)) (m ((c : Thread nD τ).loc main_arg2))) (m ((c : Thread nD τ).loc main_arg3)) (Cert.Mlp.vec (m ((c : Thread nD τ).loc main_arg4)))) := by
  show W8 m ρ c (Proc.devRef .tc (Pipeline.arrRef spec0 3)) = _
  rw [W8_arr, Cert.KernelIdeal.Region0.final (V7 m ρ) c]
  show Cert.Dense.dense (W7 m ρ c (Proc.devRef .tc main_v22)) (W7 m ρ c (Proc.devRef .tc main_arg3)) (Cert.Mlp.vec (W7 m ρ c (Proc.devRef .tc main_arg4))) = _
  rw [W7_v22, W7_arg3, W7_arg4]
theorem W8_v11 (c : Dev nD) : W8 m ρ c (Proc.devRef .tc main_v11) = Cert.Gnn.norm (m ((c : Thread nD τ).loc main_arg1)) :=
  (W8_of_ne m ρ c main_v11 (by decide)).trans (W7_v11 m ρ c)
theorem W8_v14 (c : Dev nD) : W8 m ρ c (Proc.devRef .tc main_v14) = Cert.Gnn.norm (m ((c : Thread nD τ).loc main_arg2)) :=
  (W8_of_ne m ρ c main_v14 (by decide)).trans (W7_v14 m ρ c)
theorem W8_arg1 (c : Dev nD) : W8 m ρ c (Proc.devRef .tc main_arg1) = (m ((c : Thread nD τ).loc main_arg1)) :=
  (W8_of_ne m ρ c main_arg1 (by decide)).trans (W7_arg1 m ρ c)
theorem W8_arg2 (c : Dev nD) : W8 m ρ c (Proc.devRef .tc main_arg2) = (m ((c : Thread nD τ).loc main_arg2)) :=
  (W8_of_ne m ρ c main_arg2 (by decide)).trans (W7_arg2 m ρ c)
theorem W8_arg5 (c : Dev nD) : W8 m ρ c (Proc.devRef .tc main_arg5) = (m ((c : Thread nD τ).loc main_arg5)) :=
  (W8_of_ne m ρ c main_arg5 (by decide)).trans (W7_arg5 m ρ c)
theorem W8_arg6 (c : Dev nD) : W8 m ρ c (Proc.devRef .tc main_arg6) = (m ((c : Thread nD τ).loc main_arg6)) :=
  (W8_of_ne m ρ c main_arg6 (by decide)).trans (W7_arg6 m ρ c)
theorem W8_arg7 (c : Dev nD) : W8 m ρ c (Proc.devRef .tc main_arg7) = (m ((c : Thread nD τ).loc main_arg7)) :=
  (W8_of_ne m ρ c main_arg7 (by decide)).trans (W7_arg7 m ρ c)
theorem W8_arg8 (c : Dev nD) : W8 m ρ c (Proc.devRef .tc main_arg8) = (m ((c : Thread nD τ).loc main_arg8)) :=
  (W8_of_ne m ρ c main_arg8 (by decide)).trans (W7_arg8 m ρ c)

/-! ## Region 1's entry (boundary 11) -/

theorem W11_v31 (c : Dev nD) : W11 m ρ c (Proc.devRef .tc main_v31) = (Cert.Gnn.agg Cert.Gnn.fillGather (Cert.Dense.dense (Cert.Gnn.agg Cert.Gnn.fillGather (m ((c : Thread nD τ).loc main_arg0)) (m ((c : Thread nD τ).loc main_arg1)) (m ((c : Thread nD τ).loc main_arg2))) (m ((c : Thread nD τ).loc main_arg3)) (Cert.Mlp.vec (m ((c : Thread nD τ).loc main_arg4)))) (m ((c : Thread nD τ).loc main_arg1)) (m ((c : Thread nD τ).loc main_arg2))) := by
  dsimp only [W11, W10, W9]
  simp only [hostOps1, hostOps1_1, hostOps1_2]
  after_results_simp
  simp only [TRef.ofBuf_toBuf, TRef.toBuf_ofBuf, ofBuf_cst_1, ofBuf_cst_3, ofBuf_v3, ofBuf_v7, ofBuf_arg1, ofBuf_v16, ofBuf_v25, ofBuf_v34, toBuf_v4, toBuf_v8, toBuf_v17, toBuf_v26, toBuf_v35]
  rw [W8_v23, W8_v11, W8_v14, W8_arg1, W8_arg2]
  unfold Cert.Gnn.agg Cert.Gnn.fillGather Cert.Gnn.inRange Cert.Gnn.wrap
  rfl
theorem W11_v11 (c : Dev nD) : W11 m ρ c (Proc.devRef .tc main_v11) = Cert.Gnn.norm (m ((c : Thread nD τ).loc main_arg1)) := by
  dsimp only [W11, W10, W9]
  simp only [hostOps1, hostOps1_1, hostOps1_2]
  after_results_simp
  exact W8_v11 m ρ c
theorem W11_v14 (c : Dev nD) : W11 m ρ c (Proc.devRef .tc main_v14) = Cert.Gnn.norm (m ((c : Thread nD τ).loc main_arg2)) := by
  dsimp only [W11, W10, W9]
  simp only [hostOps1, hostOps1_1, hostOps1_2]
  after_results_simp
  exact W8_v14 m ρ c
theorem W11_arg1 (c : Dev nD) : W11 m ρ c (Proc.devRef .tc main_arg1) = (m ((c : Thread nD τ).loc main_arg1)) := by
  dsimp only [W11, W10, W9]
  simp only [hostOps1, hostOps1_1, hostOps1_2]
  after_results_simp
  exact W8_arg1 m ρ c
theorem W11_arg2 (c : Dev nD) : W11 m ρ c (Proc.devRef .tc main_arg2) = (m ((c : Thread nD τ).loc main_arg2)) := by
  dsimp only [W11, W10, W9]
  simp only [hostOps1, hostOps1_1, hostOps1_2]
  after_results_simp
  exact W8_arg2 m ρ c
theorem W11_arg5 (c : Dev nD) : W11 m ρ c (Proc.devRef .tc main_arg5) = (m ((c : Thread nD τ).loc main_arg5)) := by
  dsimp only [W11, W10, W9]
  simp only [hostOps1, hostOps1_1, hostOps1_2]
  after_results_simp
  exact W8_arg5 m ρ c
theorem W11_arg6 (c : Dev nD) : W11 m ρ c (Proc.devRef .tc main_arg6) = (m ((c : Thread nD τ).loc main_arg6)) := by
  dsimp only [W11, W10, W9]
  simp only [hostOps1, hostOps1_1, hostOps1_2]
  after_results_simp
  exact W8_arg6 m ρ c
theorem W11_arg7 (c : Dev nD) : W11 m ρ c (Proc.devRef .tc main_arg7) = (m ((c : Thread nD τ).loc main_arg7)) := by
  dsimp only [W11, W10, W9]
  simp only [hostOps1, hostOps1_1, hostOps1_2]
  after_results_simp
  exact W8_arg7 m ρ c
theorem W11_arg8 (c : Dev nD) : W11 m ρ c (Proc.devRef .tc main_arg8) = (m ((c : Thread nD τ).loc main_arg8)) := by
  dsimp only [W11, W10, W9]
  simp only [hostOps1, hostOps1_1, hostOps1_2]
  after_results_simp
  exact W8_arg8 m ρ c

/-! ## Region 1's exit (boundary 12) -/

theorem W12_v32 (c : Dev nD) : W12 m ρ c (Proc.devRef .tc main_v32) = (Cert.Dense.dense (Cert.Gnn.agg Cert.Gnn.fillGather (Cert.Dense.dense (Cert.Gnn.agg Cert.Gnn.fillGather (m ((c : Thread nD τ).loc main_arg0)) (m ((c : Thread nD τ).loc main_arg1)) (m ((c : Thread nD τ).loc main_arg2))) (m ((c : Thread nD τ).loc main_arg3)) (Cert.Mlp.vec (m ((c : Thread nD τ).loc main_arg4)))) (m ((c : Thread nD τ).loc main_arg1)) (m ((c : Thread nD τ).loc main_arg2))) (m ((c : Thread nD τ).loc main_arg5)) (Cert.Mlp.vec (m ((c : Thread nD τ).loc main_arg6)))) := by
  show W12 m ρ c (Proc.devRef .tc (Pipeline.arrRef spec1 3)) = _
  rw [W12_arr, Cert.KernelIdeal.Region1.final (V11 m ρ) c]
  show Cert.Dense.dense (W11 m ρ c (Proc.devRef .tc main_v31)) (W11 m ρ c (Proc.devRef .tc main_arg5)) (Cert.Mlp.vec (W11 m ρ c (Proc.devRef .tc main_arg6))) = _
  rw [W11_v31, W11_arg5, W11_arg6]
theorem W12_v11 (c : Dev nD) : W12 m ρ c (Proc.devRef .tc main_v11) = Cert.Gnn.norm (m ((c : Thread nD τ).loc main_arg1)) :=
  (W12_of_ne m ρ c main_v11 (by decide)).trans (W11_v11 m ρ c)
theorem W12_v14 (c : Dev nD) : W12 m ρ c (Proc.devRef .tc main_v14) = Cert.Gnn.norm (m ((c : Thread nD τ).loc main_arg2)) :=
  (W12_of_ne m ρ c main_v14 (by decide)).trans (W11_v14 m ρ c)
theorem W12_arg1 (c : Dev nD) : W12 m ρ c (Proc.devRef .tc main_arg1) = (m ((c : Thread nD τ).loc main_arg1)) :=
  (W12_of_ne m ρ c main_arg1 (by decide)).trans (W11_arg1 m ρ c)
theorem W12_arg2 (c : Dev nD) : W12 m ρ c (Proc.devRef .tc main_arg2) = (m ((c : Thread nD τ).loc main_arg2)) :=
  (W12_of_ne m ρ c main_arg2 (by decide)).trans (W11_arg2 m ρ c)
theorem W12_arg7 (c : Dev nD) : W12 m ρ c (Proc.devRef .tc main_arg7) = (m ((c : Thread nD τ).loc main_arg7)) :=
  (W12_of_ne m ρ c main_arg7 (by decide)).trans (W11_arg7 m ρ c)
theorem W12_arg8 (c : Dev nD) : W12 m ρ c (Proc.devRef .tc main_arg8) = (m ((c : Thread nD τ).loc main_arg8)) :=
  (W12_of_ne m ρ c main_arg8 (by decide)).trans (W11_arg8 m ρ c)

/-! ## Region 2's entry (boundary 15) and exit (boundary 16) -/

theorem W15_v40 (c : Dev nD) : W15 m ρ c (Proc.devRef .tc main_v40) = (Cert.Gnn.agg Cert.Gnn.fillGather (Cert.Dense.dense (Cert.Gnn.agg Cert.Gnn.fillGather (Cert.Dense.dense (Cert.Gnn.agg Cert.Gnn.fillGather (m ((c : Thread nD τ).loc main_arg0)) (m ((c : Thread nD τ).loc main_arg1)) (m ((c : Thread nD τ).loc main_arg2))) (m ((c : Thread nD τ).loc main_arg3)) (Cert.Mlp.vec (m ((c : Thread nD τ).loc main_arg4)))) (m ((c : Thread nD τ).loc main_arg1)) (m ((c : Thread nD τ).loc main_arg2))) (m ((c : Thread nD τ).loc main_arg5)) (Cert.Mlp.vec (m ((c : Thread nD τ).loc main_arg6)))) (m ((c : Thread nD τ).loc main_arg1)) (m ((c : Thread nD τ).loc main_arg2))) := by
  dsimp only [W15, W14, W13]
  simp only [hostOps2, hostOps2_1, hostOps2_2]
  after_results_simp
  simp only [TRef.ofBuf_toBuf, TRef.toBuf_ofBuf, ofBuf_cst_1, ofBuf_cst_3, ofBuf_v3, ofBuf_v7, ofBuf_arg1, ofBuf_v16, ofBuf_v25, ofBuf_v34, toBuf_v4, toBuf_v8, toBuf_v17, toBuf_v26, toBuf_v35]
  rw [W12_v32, W12_v11, W12_v14, W12_arg1, W12_arg2]
  unfold Cert.Gnn.agg Cert.Gnn.fillGather Cert.Gnn.inRange Cert.Gnn.wrap
  rfl
theorem W15_arg7 (c : Dev nD) : W15 m ρ c (Proc.devRef .tc main_arg7) = (m ((c : Thread nD τ).loc main_arg7)) := by
  dsimp only [W15, W14, W13]
  simp only [hostOps2, hostOps2_1, hostOps2_2]
  after_results_simp
  exact W12_arg7 m ρ c
theorem W15_arg8 (c : Dev nD) : W15 m ρ c (Proc.devRef .tc main_arg8) = (m ((c : Thread nD τ).loc main_arg8)) := by
  dsimp only [W15, W14, W13]
  simp only [hostOps2, hostOps2_1, hostOps2_2]
  after_results_simp
  exact W12_arg8 m ρ c

/-- The dense stage as the network's stage function. -/
abbrev denseL (x : FVec Ideal S50000x96 .f32) (W : FVec Ideal S96x96 .f32) (b : FVec Ideal S96 .f32) : FVec Ideal S50000x96 .f32 :=
  Cert.Dense.dense x W (Cert.Mlp.vec b)

/-- THE RESULT BUFFER at the last boundary: the network of the argument arrays, with the fill-mode gather and the
    index-by-index dense stage. -/
theorem W16_v41 (c : Dev nD) : W16 m ρ c (Proc.devRef .tc main_v41)
    = Cert.Gnn.net Cert.Gnn.fillGather denseL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show W16 m ρ c (Proc.devRef .tc (Pipeline.arrRef spec2 3)) = _
  rw [W16_arr, Cert.KernelIdeal.Region2.final (V15 m ρ) c]
  show Cert.Dense.dense (W15 m ρ c (Proc.devRef .tc main_v40)) (W15 m ρ c (Proc.devRef .tc main_arg7)) (Cert.Mlp.vec (W15 m ρ c (Proc.devRef .tc main_arg8))) = _
  rw [W15_v40, W15_arg7, W15_arg8]
  rfl

end Cert.KernelIdeal.KValue

end
-- ==== Proof.RefValue.lean ====
/-
  The reference's result as the shared network: its run's composed term IS three rounds of aggregation (with the plain
  row gather) and the host's dense stage, by unfolding the names.
-/
import proofs.«420361_j23003844838150_1_alg».proof.Proof.Gen.ReferenceIdeal.Run
import proofs.«420361_j23003844838150_1_alg».proof.Proof.Stages

set_option maxRecDepth 16384

noncomputable section

namespace Cert.ReferenceIdeal.RefValue

open Idealize.ShloMosaic Idealize.ShloMosaic.TcCoe Idealize.SL.Sem
open Cert.ReferenceIdeal Cert.ReferenceIdeal.Gen

/-- The reference's result array is the network of its argument arrays, with the plain gather and the host's stage. -/
theorem res_eq (m : (ℓ : Loc nD τ sig) → Buf (Elt Ideal) ℓ) (c : Dev nD) :
    Cert.ReferenceIdeal.Value.res_out0 (F := Ideal) m c
      = Cert.Gnn.net Cert.Gnn.plainGather Cert.Gnn.layer
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8)) := by
  unfold Cert.ReferenceIdeal.Value.res_out0 Cert.ReferenceIdeal.Value.res_main_v71
  rfl

end Cert.ReferenceIdeal.RefValue

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.TakeInRange.lean ====
/-
  Inside its index range the fill-mode row fetch is the plain row fetch.

  The precondition says of every source index word `s` that `-50000 ≤ s < 50000` as a signed 32-bit integer
  (`src_in_range`: the predicate's last two conjuncts are two reductions by `and` of the comparisons `s ≥ -50000` and
  `s < 50000` over all edges, and a reduction by `and` from the bit 1 that comes out 1 met only 1s).

  The kernel wraps a negative index (`s' = if s < 0 then s + 50000 else s`), tests `0 ≤ s' ∧ s' ≤ 49999`, reduces the
  tests by `and` along the index column (one word per edge) and keeps a fetched row where the reduced bit is 1, putting a
  fill pattern elsewhere. A word in `[-50000, 50000)` wraps into `[0, 50000)`, so every test is the bit 1, every reduced
  bit is 1, and the select keeps every fetched row: the fill-mode gather of the wrapped indices is their plain gather
  (`fill_eq_plain`).
-/
import proofs.«420361_j23003844838150_1_alg».proof.Defs
import proofs.«420361_j23003844838150_1_alg».proof.Proof.Gen.Pre_finite_inputs
import proofs.«420361_j23003844838150_1_alg».proof.Proof.KStages
import proofs.«420361_j23003844838150_1_alg».proof.Proof.LibIndexWrap
import Idealize.ShloMosaic.Lib.ReduceAll

noncomputable section

open Idealize.ShloMosaic Idealize.SL.Sem

namespace Cert.Gnn

/-- The rank-0 shape has exactly one index: an index is a function on the empty set of axes. -/
instance subsingleton_scalarIdx : Subsingleton Cert.Pre_finite_inputs.S_.Idx := ⟨fun a b => funext fun d => d.elim0⟩

open Cert.Pre_finite_inputs in
/-- The input predicate read back at its second argument, over arrays of the literal shapes. The predicate is a
    conjunction (by `and` of bits) whose last two conjuncts are `all (a1 ≥ -50000)` and `all (a1 < 50000)`, signed; each
    `all` is a reduction by `and` from the bit 1 into the one index of the rank-0 shape. If the whole is 1, both
    conjuncts are 1, so both comparisons hold at every index `e`; read as signed integers (the word `4294917296` is
    `-50000`), that is `-50000 ≤ a1[e] < 50000`. -/
theorem pre_decode (a0 : FVec Ideal S50000x96 .f32) (a1 a2 : IVec S800000 32) (a3 : FVec Ideal S96x96 .f32)
    (a4 : FVec Ideal S96 .f32) (a5 : FVec Ideal S96x96 .f32) (a6 : FVec Ideal S96 .f32) (a7 : FVec Ideal S96x96 .f32)
    (a8 : FVec Ideal S96 .f32)
    (h : Cert.Pre_finite_inputs.fn (F := Ideal) a0 a1 a2 a3 a4 a5 a6 a7 a8 = fun _ => 1#1) (e : S800000.Idx) :
    -50000 ≤ (a1 e).toInt ∧ (a1 e).toInt < 50000 := by
  -- the predicate at the one index of its rank-0 result
  have h0 : _ = 1#1 := congrFun h ValueIdx.ix0
  unfold Cert.Pre_finite_inputs.fn Cert.Pre_finite_inputs.fn_part1 Cert.Pre_finite_inputs.fn_part2 at h0
  dsimp only at h0
  -- (… ∧ all (a1 ≥ -50000)) ∧ all (a1 < 50000)
  obtain ⟨hl, hlt⟩ := IntOp.andi_eq_one.1 h0
  obtain ⟨-, hge⟩ := IntOp.andi_eq_one.1 hl
  -- each `all` at the index e; a broadcast constant reads the constant
  have hge' : IntOp.cmpi .sge (a1 e) 4294917296#32 = 1#1 := Host.reduce_andi_all _ _ _ _ _ hge e
  have hlt' : IntOp.cmpi .slt (a1 e) 50000#32 = 1#1 := Host.reduce_andi_all _ _ _ _ _ hlt e
  have elo : (4294917296#32 : BitVec 32).toInt = -50000 := by decide
  have ehi : (50000#32 : BitVec 32).toInt = 50000 := by decide
  have g1 := IntOp.cmpi_sge.1 hge'
  have g2 := IntOp.cmpi_slt.1 hlt'
  rw [elo] at g1
  rw [ehi] at g2
  exact ⟨g1, g2⟩

/-- Under the kernel's precondition every source index word lies in `[-50000, 50000)` as a signed integer, on every
    device: the precondition is the input predicate of that device's argument arrays, read back by `pre_decode`. -/
theorem src_in_range (m : (ℓ : Loc Cert.KernelIdeal.nD Cert.KernelIdeal.τ Cert.KernelIdeal.sig) → Buf (Elt Ideal) ℓ)
    (hpre : Cert.Pre_KernelIdeal m) (c : Dev Cert.KernelIdeal.nD) (e : Cert.KernelIdeal.S800000.Idx) :
    -50000 ≤ (m ((c.tc : Thread Cert.KernelIdeal.nD Cert.KernelIdeal.τ).loc Cert.KernelIdeal.main_arg1) e).toInt
      ∧ (m ((c.tc : Thread Cert.KernelIdeal.nD Cert.KernelIdeal.τ).loc Cert.KernelIdeal.main_arg1) e).toInt < 50000 :=
  pre_decode _ _ _ _ _ _ _ _ _ (hpre c) e

open Idealize.ShloMosaic.IndexWrap in
/-- With every source index in `[-50000, 50000)`, the fill-mode gather of the wrapped indices is their plain gather.
    The two gathers fetch the same rows (the same dimension numbers), so it is enough that the select's mask is 1
    everywhere. The mask at `(e, q)` is the range bit of edge `e`: the reduction by `and`, from the bit 1, of the tests
    along the index column. The test at `(e, 0)` is `0 ≤ s' ∧ s' ≤ 49999` of the wrapped word `s'` of `src[e]` (compare,
    `and`, select and add act index by index, and a broadcast constant reads the constant), which is 1 because a word in
    `[-50000, 50000)` wraps into `[0, 50000)`. -/
theorem fill_eq_plain (x : FVec Ideal Cert.KernelIdeal.S50000x96 .f32) (src : IVec Cert.KernelIdeal.S800000 32)
    (h : ∀ e, -50000 ≤ (src e).toInt ∧ (src e).toInt < 50000) :
    Cert.Gnn.fillGather x (Cert.Gnn.wrap src) = Cert.Gnn.plainGather x (Cert.Gnn.wrap src) := by
  unfold fillGather plainGather
  -- a select under an all-ones mask is its first branch, here the fetched rows
  refine select_of_ones _ _ _ (fun i => ?_)
  -- the mask at (e, q) is the range bit at e
  show inRange (wrap src) _ = 1#1
  unfold inRange
  -- a reduction by `and` from 1 over bits that are all 1 is 1
  refine reduce_andi_of_all _ _ _ _ (fun _ => rfl) (fun k => ?_) _
  -- the test at (e, 0), on the wrapped word of src[e]
  show IntOp.andi (IntOp.cmpi .sge (wrapWord 50000#32 (src _)) 0#32)
    (IntOp.cmpi .sle (wrapWord 50000#32 (src _)) 49999#32) = 1#1
  exact rangeTest_wrap 50000 (by norm_num) (by norm_num) 49999#32 (by decide) _ (h _).1 (h _).2

end Cert.Gnn

end
-- ==== Proof.lean ====
/-
  A three-layer graph convolution: per layer, the node rows are scaled by the source-side degree norm, one row is
  fetched per edge, the fetched rows are added into the rows the destination indices name, the sums are scaled by the
  destination-side degree norm, and a dense stage  max (x · W + b) 0  is applied. The kernel program computes the dense
  stage in a Pallas region, ten blocks of 5000 rows at a time, and fetches the rows with a fill-mode take; the reference
  computes the stage on the host and fetches with a plain (clamped) gather.

  On the extended reals the two agree under the precondition, which bounds every source index word to the valid range
  [-50000, 50000) of the 50000-row table:
  * the dense stage reads only the row it is asked for, so the region's ten blocks are the blocks of the stage of the
    whole matrix, and they tile it (Region0/1/2.lean); a matrix-unit product into a zero accumulator and the host's
    dot_general are the same sum (Dense.lean);
  * in range, every range test of the fill-mode take passes, so it keeps every fetched row (TakeInRange.lean);
  * every other host operation is the same operation on both sides (Stages.lean), carried unopened.
  No finiteness of the float inputs is used.
-/
import proofs.«420361_j23003844838150_1_alg».proof.Defs
import proofs.«420361_j23003844838150_1_alg».proof.Proof.Gen.Kernel
import proofs.«420361_j23003844838150_1_alg».proof.Proof.Gen.Kernel.Skeleton
import proofs.«420361_j23003844838150_1_alg».proof.Proof.Gen.Kernel.Launch
import proofs.«420361_j23003844838150_1_alg».proof.Proof.Gen.Kernel.Points
import proofs.«420361_j23003844838150_1_alg».proof.Proof.Gen.Kernel.Frame
import proofs.«420361_j23003844838150_1_alg».proof.Proof.Gen.KernelIdeal
import proofs.«420361_j23003844838150_1_alg».proof.Proof.Gen.KernelIdeal.Skeleton
import proofs.«420361_j23003844838150_1_alg».proof.Proof.Gen.KernelIdeal.Launch
import proofs.«420361_j23003844838150_1_alg».proof.Proof.Gen.KernelIdeal.Points
import proofs.«420361_j23003844838150_1_alg».proof.Proof.Gen.KernelIdeal.Frame
import proofs.«420361_j23003844838150_1_alg».proof.Proof.Gen.ReferenceIdeal
import proofs.«420361_j23003844838150_1_alg».proof.Proof.Gen.Pre_finite_inputs
import proofs.«420361_j23003844838150_1_alg».proof.Proof.Gen.ReferenceIdeal.Run
import proofs.«420361_j23003844838150_1_alg».proof.Proof.KernelRun
import proofs.«420361_j23003844838150_1_alg».proof.Proof.KernelValue
import proofs.«420361_j23003844838150_1_alg».proof.Proof.RefValue
import proofs.«420361_j23003844838150_1_alg».proof.Proof.TakeInRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- With every source index in range, the network with the fill-mode gather and the index-by-index dense stage is the
    network with the plain gather and the host's dense stage: the stages are one function, and each of the three
    fill-mode fetches keeps every row. -/
theorem net_eq (h : FVec Ideal Cert.KernelIdeal.S50000x96 .f32) (src dst : IVec Cert.KernelIdeal.S800000 32)
    (W0 : FVec Ideal Cert.KernelIdeal.S96x96 .f32) (b0 : FVec Ideal Cert.KernelIdeal.S96 .f32)
    (W1 : FVec Ideal Cert.KernelIdeal.S96x96 .f32) (b1 : FVec Ideal Cert.KernelIdeal.S96 .f32)
    (W2 : FVec Ideal Cert.KernelIdeal.S96x96 .f32) (b2 : FVec Ideal Cert.KernelIdeal.S96 .f32)
    (hs : ∀ e, -50000 ≤ (src e).toInt ∧ (src e).toInt < 50000) :
    Cert.Gnn.net Cert.Gnn.fillGather Cert.KernelIdeal.KValue.denseL h src dst W0 b0 W1 b1 W2 b2
      = Cert.Gnn.net Cert.Gnn.plainGather Cert.Gnn.layer h src dst W0 b0 W1 b1 W2 b2 := by
  have hL : Cert.KernelIdeal.KValue.denseL = Cert.Gnn.layer :=
    funext fun x => funext fun W => funext fun b => (Cert.Gnn.layer_eq x W b).symm
  unfold Cert.Gnn.net Cert.Gnn.agg
  rw [hL]
  simp only [Cert.Gnn.fill_eq_plain _ _ hs]

/-- Both programs end with the network of the argument arrays: the kernel's result buffer holds it with the fill-mode
    gather (read through the boundaries of its run), the reference's with the plain gather (its run's term), and under
    the precondition these are one array. -/
theorem algebraic : Cert.algebraic_KernelIdeal_ReferenceIdeal := by
  intro m ρ m' ρ' hpre hagree
  refine ⟨fun c => Cert.KernelIdeal.Gen.W16 m ρ c (Proc.devRef .tc Cert.KernelIdeal.main_v41),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.RefValue.res_eq m' c).trans ?_).trans (Cert.KernelIdeal.KValue.W16_v41 m ρ c).symm
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (net_eq _ _ _ _ _ _ _ _ _ (fun e => Cert.Gnn.src_in_range m hpre c e)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
